-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x128 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S2000x256 : Shape := ⟨2, ![2000, 256]⟩
abbrev S2000x128 : Shape := ⟨2, ![2000, 128]⟩
abbrev S1x256 : Shape := ⟨2, ![1, 256]⟩
abbrev S1x128 : Shape := ⟨2, ![1, 128]⟩

abbrev nBuf : Space → Nat
  | .hbm => 32
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S100000x256, .f32⟩
  | .hbm, ⟨28, _⟩ => ⟨S256x256, .bf16⟩
  | .hbm, ⟨29, _⟩ => ⟨S256x256, .bf16⟩
  | .hbm, ⟨30, _⟩ => ⟨S256x128, .bf16⟩
  | .hbm, ⟨31, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v14) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S1600000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S100000x256, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S1x256, .f32⟩
  | .hbm, ⟨37, _⟩ => ⟨S100000x256, .f32⟩
  | .hbm, ⟨38, _⟩ => ⟨S100000x256, .f32⟩
  | .hbm, ⟨39, _⟩ => ⟨S_, .f32⟩
  | .hbm, ⟨40, _⟩ => ⟨S100000x256, .f32⟩
  | .hbm, ⟨41, _⟩ => ⟨S100000x256, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Perceptron.lean ====
/-
  A three-layer perceptron, one row at a time, on the extended reals.

  A layer sends a row x of K features to the N numbers  (∑ₖ x[k] · W[k, j]) + b[j];  a hidden layer then takes the
  positive part, max(·, 0). The network is  layer₃ ∘ hidden₂ ∘ hidden₁  and acts on an [M, 256] array of features row by
  row: row p of the result depends on row p of the features and on nothing else, which is why cutting the rows into
  blocks does not change it.

  Two spellings of one layer are read at an index (p, j) here. The vector unit's: a matrix product into a zero
  accumulator plus the bias laid out as one row and repeated down the rows. The host's: a general product plus the bias
  broadcast to one row and then to all rows. Both are the same sum plus the same bias entry. Narrowing a float format is
  the identity on the extended reals, so it does not appear.
-/
import proofs.«169461_j25134148616720_1_alg».proof.Proof.LibPlainDot
import proofs.«169461_j25134148616720_1_alg».proof.Proof.LibRowBias

noncomputable section

open scoped BigOperators

namespace Cert.Perceptron

open Idealize.ShloMosaic Idealize.ShloMosaic.ValueIdx

/-- The float zero, spelt as both programs spell it (its word is never evaluated). -/
abbrev zero : EReal := Ideal.ofBits .f32 0x00000000#32

/-- One layer on one row: entry j of x·W + b. -/
def layer {K N : Nat} (W : (⟨2, ![K, N]⟩ : Shape).Idx → EReal) (b : (⟨1, ![N]⟩ : Shape).Idx → EReal)
    (x : Fin K → EReal) (j : Fin N) : EReal :=
  (∑ k : Fin K, x k * W (ix2 k j)) + b (ix1 j)

/-- A layer followed by the positive part. -/
def hidden {K N : Nat} (W : (⟨2, ![K, N]⟩ : Shape).Idx → EReal) (b : (⟨1, ![N]⟩ : Shape).Idx → EReal)
    (x : Fin K → EReal) (j : Fin N) : EReal :=
  max (layer W b x j) zero

/-- The network on one row of 256 features: two hidden layers of width 256 and an output layer of width 128. -/
def row (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal)
    (x : Fin 256 → EReal) (q : Fin 128) : EReal :=
  layer W3 b3 (hidden W2 b2 (hidden W1 b1 x)) q

/-- The network on every row of an [M, 256] array. -/
def rows {M : Nat} (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal)
    (feat : (⟨2, ![M, 256]⟩ : Shape).Idx → EReal) : (⟨2, ![M, 128]⟩ : Shape).Idx → EReal :=
  fun i => row W1 b1 W2 b2 W3 b3 (fun k => feat (ix2 (i 0) k)) (i 1)

theorem rows_apply {M : Nat} (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 128]⟩ : Shape).Idx → EReal) (b3 : (⟨1, ![128]⟩ : Shape).Idx → EReal)
    (feat : (⟨2, ![M, 256]⟩ : Shape).Idx → EReal) (p : Fin M) (q : Fin 128) :
    rows W1 b1 W2 b2 W3 b3 feat (ix2 p q) = row W1 b1 W2 b2 W3 b3 (fun k => feat (ix2 p k)) q := rfl

/-! ## One layer at an index, in the two spellings -/

variable {M K N : Nat}

/-- The vector unit's layer: the product into a zero accumulator plus the bias vector as one row repeated down the rows. -/
theorem unit_layer_apply (prec : Option ContractPrecision) {φ₁ φ₂ : FTy} (x : FVec Ideal ⟨2, ![M, K]⟩ φ₁) (w : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    addf (matmul (DotDims.plain M K N) prec x w (constant ⟨2, ![M, N]⟩ .f32 0x00000000#32))
        (broadcastTo ⟨2, ![M, N]⟩ (shapeCast ⟨2, ![1, N]⟩ b h1) h2) (ix2 p j)
      = layer w b (fun k => x (ix2 p k)) j := by
  rw [addf_apply, Cert.RowBias.rows_apply, Cert.RowBias.ofVec_apply]
  exact congrArg (· + b (ix1 j)) (Cert.PlainDot.matmul_zero_apply prec x w p j)

/-- The host's layer: the general product plus the bias vector broadcast to one row and then to every row. -/
theorem host_layer_apply (prec : Option ContractPrecision) {φ₁ φ₂ : FTy} (x : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    addf (Host.dotGeneral (DotDims.plain M K N) prec x w)
        (broadcastInDim ⟨2, ![M, N]⟩ ![0, 1] h2 (broadcastInDim ⟨2, ![1, N]⟩ ![1] h1 b)) (ix2 p j)
      = layer w b (fun k => x (ix2 p k)) j := by
  rw [addf_apply, Cert.RowBias.hostRows_apply]
  exact congrArg (· + b (ix1 j)) (Cert.PlainDot.dotGeneral_apply prec .single x w p j)

end Cert.Perceptron

end
-- ==== Proof.KernelRow.lean ====
/-
  What the kernel body stores, read at one entry.

  The body loads a block of 2000 feature rows and the six weight and bias arrays, and stores
      (max(max(x·W1 + b1, 0)·W2 + b2, 0))·W3 + b3
  computed with three matrix products into zero accumulators; the changes of float format in between are the
  identity on the extended reals. Entry (p, q) of the stored block is therefore the network applied to row p of
  the loaded block, at output q.
-/
import proofs.«169461_j25134148616720_1_alg».proof.Proof.Gen.KernelIdeal.Skeleton
import proofs.«169461_j25134148616720_1_alg».proof.Proof.Perceptron
import Idealize.ShloMosaic.Lib.Pipeline.Value

noncomputable section

namespace Cert.KernelIdeal.RowValue

open Cert.KernelIdeal Cert.KernelIdeal.Gen Idealize.ShloMosaic Idealize.ShloMosaic.ValueIdx

/-- The two printed products are plain M×K by K×N products. -/
theorem dims_hidden : dot_S2000x256_S256x256_S2000x256_1_0_0_1_n_n = DotDims.plain 2000 256 256 := rfl
theorem dims_out : dot_S2000x256_S256x128_S2000x128_1_0_0_1_n_n = DotDims.plain 2000 256 128 := rfl

/-- Entry (p, q) of the stored block is the network on row p of the loaded feature block. -/
theorem payload_apply (x : Vec Ideal S2000x256 .f32) (w1 : Vec Ideal S256x256 .bf16) (b1 : Vec Ideal S256 .f32)
    (w2 : Vec Ideal S256x256 .bf16) (b2 : Vec Ideal S256 .f32) (w3 : Vec Ideal S256x128 .bf16) (b3 : Vec Ideal S128 .f32)
    (p : Fin 2000) (q : Fin 128) :
    k0_pay1 (F := Ideal) x w1 b1 w2 b2 w3 b3 (ix2 p q)
      = Cert.Perceptron.row w1 b1 w2 b2 w3 b3 (fun k => x (ix2 p k)) q := by
  unfold k0_pay1 Cert.Perceptron.row
  simp only [shapeCast_self, dims_hidden, dims_out]
  rw [Cert.Perceptron.unit_layer_apply]
  refine congrArg (fun r => Cert.Perceptron.layer w3 b3 r q) (funext fun j => ?_)
  -- the second hidden layer: the narrowing is the identity, the maximum is entrywise, the splat zero is zero
  rw [truncf_apply, maximumf_apply, Cert.Perceptron.unit_layer_apply]
  unfold Cert.Perceptron.hidden
  refine congrArg (fun r => max (Cert.Perceptron.layer w2 b2 r j) Cert.Perceptron.zero) (funext fun k => ?_)
  -- the first hidden layer, the same way; the block's own narrowing is the identity too
  rw [truncf_apply, maximumf_apply, Cert.Perceptron.unit_layer_apply]
  rfl

end Cert.KernelIdeal.RowValue

end
-- ==== Proof.KernelArray.lean ====
/-
  The kernel's result array, as the network applied to every row of the features.

  The grid has 50 points. Point t stages rows 2000·t … 2000·t + 1999 of the [100000, 256] feature array, and the six
  weight and bias arrays whole (their block index never moves), and writes back rows 2000·t … 2000·t + 1999 of the
  [100000, 128] result. The network acts row by row, so what point t writes back is block t of ONE whole-array function:
  the network applied to every row of the features. Row r of the result lies in block r / 2000, so the 50 blocks cover
  the array, and after the run the array is that function.

  Everything here is stated over the arrays as the region finds them; what the host operations before the region put
  there is read in another module.
-/
import proofs.«169461_j25134148616720_1_alg».proof.Proof.Gen.KernelIdeal.Value
import proofs.«169461_j25134148616720_1_alg».proof.Proof.KernelRow

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps over the 50 points: the feature and result windows sit at block (t, 0); the weight and bias
    windows stay at the origin. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- The grid has 50 points. -/
theorem point_lt (t : Fin cfg0.N) : t.val < 50 := by
  have h : t.val < grid0.N := t.isLt
  have := N_0
  omega

/-- The whole-array function: the network on every row of the features, with the weights and biases as the region
    finds them. -/
abbrev network (c : Dev nD) : S100000x128.Idx → EReal :=
  Cert.Perceptron.rows (V m c main_v15) (V m c main_arg4) (V m c main_v16) (V m c main_arg6) (V m c main_v17)
    (V m c main_arg8) (V m c main_v14)

/-- A stored block's entry (p, q), when the loaded feature block is rows T·2000 … of the features and the loaded weights
    and biases are the whole arrays: the network on row T·2000 + p. -/
theorem block_entry (x : Vec Ideal S2000x256 .f32) (w1 : Vec Ideal S256x256 .bf16) (b1 : Vec Ideal S256 .f32)
    (w2 : Vec Ideal S256x256 .bf16) (b2 : Vec Ideal S256 .f32) (w3 : Vec Ideal S256x128 .bf16) (b3 : Vec Ideal S128 .f32)
    (feat : S100000x256.Idx → EReal) (T : Nat) (hT : T < 50)
    (hx : ∀ (p : Fin 2000) (k : Fin 256), x (ix2 p k) = feat (ix2 (⟨T * 2000 + p.val, by have := p.isLt; omega⟩ : Fin 100000) k))
    (p : Fin 2000) (q : Fin 128) :
    k0_pay1 (F := Ideal) x w1 b1 w2 b2 w3 b3 (ix2 p q)
      = Cert.Perceptron.rows w1 b1 w2 b2 w3 b3 feat (ix2 (⟨T * 2000 + p.val, by have := p.isLt; omega⟩ : Fin 100000) q) := by
  rw [Cert.KernelIdeal.RowValue.payload_apply, Cert.Perceptron.rows_apply]
  exact congrArg (fun r => Cert.Perceptron.row w1 b1 w2 b2 w3 b3 r q) (funext fun k => hx p k)

/-! ## The blocks the body loads -/

/-- The feature block at point t is rows 2000·t … of the feature array. -/
theorem feature_block (c : Dev nD) (t : Fin cfg0.N) (p : Fin 2000) (k : Fin 256) :
    iblk m c 0 t (ix2 p k) = V m c main_v14 (ix2 (⟨t.val * 2000 + p.val, by have := p.isLt; have := point_lt t; omega⟩ : Fin 100000) k) := by
  obtain ⟨e0, e1, -⟩ := idx_facts t
  show V m c main_v14 (((cfg0.win 0).blk t).view.emb (ix2 p k)) = _
  refine congrArg (V m c main_v14) (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- The first weight block is the whole array, at every point. -/
theorem weight1_block (c : Dev nD) (t : Fin cfg0.N) : iblk m c 1 t = V m c main_v15 := by
  obtain ⟨-, -, -, -, e0, e1, -⟩ := idx_facts t
  funext y
  show V m c main_v15 (((cfg0.win 1).blk t).view.emb y) = V m c main_v15 y
  refine congrArg (V m c main_v15) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem bias1_block (c : Dev nD) (t : Fin cfg0.N) : iblk m c 2 t = V m c main_arg4 := by
  obtain ⟨-, -, -, -, -, -, e0, -⟩ := idx_facts t
  funext y
  show V m c main_arg4 (((cfg0.win 2).blk t).view.emb y) = V m c main_arg4 y
  refine congrArg (V m c main_arg4) (funext fun a => Fin.ext ?_)
  match a with
  | ⟨0, _⟩ => show win0_2.index t (0 : Fin 1) * 256 + 1 * (y 0).val = (y 0).val; omega

theorem weight2_block (c : Dev nD) (t : Fin cfg0.N) : iblk m c 3 t = V m c main_v16 := by
  obtain ⟨-, -, -, -, -, -, -, e0, e1, -⟩ := idx_facts t
  funext y
  show V m c main_v16 (((cfg0.win 3).blk t).view.emb y) = V m c main_v16 y
  refine congrArg (V m c main_v16) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem bias2_block (c : Dev nD) (t : Fin cfg0.N) : iblk m c 4 t = V m c main_arg6 := by
  obtain ⟨-, -, -, -, -, -, -, -, -, e0, -⟩ := idx_facts t
  funext y
  show V m c main_arg6 (((cfg0.win 4).blk t).view.emb y) = V m c main_arg6 y
  refine congrArg (V m c main_arg6) (funext fun a => Fin.ext ?_)
  match a with
  | ⟨0, _⟩ => show win0_4.index t (0 : Fin 1) * 256 + 1 * (y 0).val = (y 0).val; omega

theorem weight3_block (c : Dev nD) (t : Fin cfg0.N) : iblk m c 5 t = V m c main_v17 := by
  obtain ⟨-, -, -, -, -, -, -, -, -, -, e0, e1, -⟩ := idx_facts t
  funext y
  show V m c main_v17 (((cfg0.win 5).blk t).view.emb y) = V m c main_v17 y
  refine congrArg (V m c main_v17) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem bias3_block (c : Dev nD) (t : Fin cfg0.N) : iblk m c 6 t = V m c main_arg8 := by
  obtain ⟨-, -, -, -, -, -, -, -, -, -, -, -, e0⟩ := idx_facts t
  funext y
  show V m c main_arg8 (((cfg0.win 6).blk t).view.emb y) = V m c main_arg8 y
  refine congrArg (V m c main_arg8) (funext fun a => Fin.ext ?_)
  match a with
  | ⟨0, _⟩ => show win0_6.index t (0 : Fin 1) * 128 + 1 * (y 0).val = (y 0).val; omega

/-! ## What a point writes back, the cover, and the array after the run -/

/-- Point t writes back block t of the network's whole-array function. -/
theorem flushed_eq (c : Dev nD) (t : Fin cfg0.N) :
    (dats m 0 c).flushed 7 t = ((cfg0.win 7).blk t).view.read (Elt Ideal) (network m c) := by
  rw [flushed7]
  unfold out0_7
  rw [View.canon_unit_zero origin2]
  simp only [View.ld_unit_zero (S := S2000x256) origin2, View.ld_unit_zero (S := S256x256) origin2,
    View.ld_unit_zero (S := S256x128) origin2, View.ld_unit_zero (S := S256) origin1, View.ld_unit_zero (S := S128) origin1]
  rw [weight1_block, bias1_block, weight2_block, bias2_block, weight3_block, bias3_block]
  obtain ⟨-, -, e0, e1, -⟩ := idx_facts t
  funext j
  obtain ⟨p, q, rfl⟩ : ∃ (p : Fin 2000) (q : Fin 128), j = ix2 p q := ⟨j 0, j 1, eq_ix2 j⟩
  have hemb : ((cfg0.win 7).blk t).view.emb (ix2 p q)
      = ix2 (⟨t.val * 2000 + p.val, by have := p.isLt; have := point_lt t; omega⟩ : Fin 100000) q := by
    funext a; apply Fin.ext
    match a with
    | ⟨0, _⟩ => show win0_7.index t (0 : Fin 2) * 2000 + 1 * p.val = t.val * 2000 + p.val; omega
    | ⟨1, _⟩ => show win0_7.index t (1 : Fin 2) * 128 + 1 * q.val = q.val; omega
  show k0_pay1 (F := Ideal) (iblk m c 0 t) (V m c main_v15) (V m c main_arg4) (V m c main_v16) (V m c main_arg6) (V m c main_v17) (V m c main_arg8) (ix2 p q)
    = network m c (((cfg0.win 7).blk t).view.emb (ix2 p q))
  rw [hemb]
  exact block_entry (iblk m c 0 t) (V m c main_v15) (V m c main_arg4) (V m c main_v16) (V m c main_arg6) (V m c main_v17) (V m c main_arg8)
    (V m c main_v14) t.val (point_lt t) (fun p k => feature_block m c t p k) p q

/-- An index of the result array is in point t's block iff each coordinate is in the block's range on its axis. -/
theorem mem_block (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v18).slice (win0_7.rect t)).set ↔ _
  rw [View.set_slice_whole, Rect.mem_set_unit]
  exact Iff.rfl

/-- Row r of the result lies in the block of point r / 2000: the blocks cover the array. -/
theorem covered (i : S100000x128.Idx) : ∃ t : Fin cfg0.N, (cfg0.win 7).flush t = true ∧ i ∈ ((cfg0.win 7).blk t).view.set := by
  have h0 : (i 0).val < 100000 := (i 0).isLt
  have h1 : (i 1).val < 128 := (i 1).isLt
  have hN : (i 0).val / 2000 < cfg0.N := by have := N_0; show _ < grid0.N; omega
  obtain ⟨-, -, e0, e1, -⟩ := idx_facts ⟨(i 0).val / 2000, hN⟩
  refine ⟨⟨(i 0).val / 2000, hN⟩, flush0_7 _, ?_⟩
  rw [mem_block]
  intro a
  match a with
  | ⟨0, _⟩ =>
    show win0_7.index ⟨(i 0).val / 2000, hN⟩ (0 : Fin 2) * 2000 ≤ (i 0).val ∧ (i 0).val < win0_7.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hN⟩ (1 : Fin 2) * 128 ≤ (i 1).val ∧ (i 1).val < win0_7.index ⟨(i 0).val / 2000, hN⟩ (1 : Fin 2) * 128 + 128
    rw [e1]; omega

/-- The result array after the run is the network on every row of the features. -/
theorem final (c : Dev nD) : (dats m 0 c).arrAt 7 cfg0.N = network m c :=
  (dats m 0 c).arrAt_eq_of_cover 7 (network m c) (fun t _ => flushed_eq m c t) covered

end Cert.KernelIdeal.ArrayValue

end
-- ==== Proof.KernelInputs.lean ====
/-
  What the region finds in its windows' arrays.

  Before the kernel launches, the host assembles the features — the node features beside the mean of the incoming edge
  features, one row per node — and narrows the three weight matrices to a shorter float format. The operations that
  assemble the features are, operation for operation, the ones the reference starts with, so the region finds the
  reference's own feature array; and it finds each weight matrix narrowed, which on the extended reals is the matrix
  itself. Stated for every float instance: nothing here depends on what a float is.
-/
import proofs.«169461_j25134148616720_1_alg».proof.Proof.Gen.KernelIdeal.Frame
import proofs.«169461_j25134148616720_1_alg».proof.Proof.Gen.ReferenceIdeal.Read
import Idealize.ShloMosaic.Lib.StableHlo.Run

noncomputable section

namespace Cert.KernelIdeal.Inputs

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-- The first weight matrix, narrowed. -/
theorem weight1 (c : Dev nD) :
    (V m c main_v15 : (⟨S256x256, .bf16⟩ : BufTy).Contents (Elt F))
      = truncf .bf16 (m ((c : Thread nD τ).loc main_arg3) : (⟨S256x256, .f32⟩ : BufTy).Contents (Elt F)) bitsLt_bf16_f32 := by
  dsimp only [V, hostOps0]
  after_results

/-- The second weight matrix, narrowed. -/
theorem weight2 (c : Dev nD) :
    (V m c main_v16 : (⟨S256x256, .bf16⟩ : BufTy).Contents (Elt F))
      = truncf .bf16 (m ((c : Thread nD τ).loc main_arg5) : (⟨S256x256, .f32⟩ : BufTy).Contents (Elt F)) bitsLt_bf16_f32 := by
  dsimp only [V, hostOps0]
  after_results

/-- The third weight matrix, narrowed. -/
theorem weight3 (c : Dev nD) :
    (V m c main_v17 : (⟨S256x128, .bf16⟩ : BufTy).Contents (Elt F))
      = truncf .bf16 (m ((c : Thread nD τ).loc main_arg7) : (⟨S256x128, .f32⟩ : BufTy).Contents (Elt F)) bitsLt_bf16_f32 := by
  dsimp only [V, hostOps0]
  after_results

set_option maxHeartbeats 2000000 in
/-- The features: the array the reference assembles from the same three arguments (the node features, and the sum of the
    incoming edge features over the larger of their count and one). -/
theorem features (c : Dev nD) :
    (V m c main_v14 : (⟨S100000x256, .f32⟩ : BufTy).Contents (Elt F))
      = Cert.ReferenceIdeal.Read.val_main_v14 (F := F) (m ((c : Thread nD τ).loc main_arg0))
          (m ((c : Thread nD τ).loc main_arg1)) (m ((c : Thread nD τ).loc main_arg2)) := by
  dsimp only [V, hostOps0]
  after_results
  rfl

end Cert.KernelIdeal.Inputs

end
-- ==== Proof.ReferenceRow.lean ====
/-
  What the reference computes, read at one entry.

  After the features are assembled the reference applies the network to all 100000 rows at once: three general
  products, each followed by its bias broadcast to every row, the first two followed by a maximum with a zero array.
  Entry (P, q) of its result is the network applied to row P of the features, at output q.
-/
import proofs.«169461_j25134148616720_1_alg».proof.Proof.Gen.ReferenceIdeal.Read
import proofs.«169461_j25134148616720_1_alg».proof.Proof.Perceptron

noncomputable section

namespace Cert.ReferenceIdeal.RowValue

open Cert.ReferenceIdeal Cert.ReferenceIdeal.Gen Cert.ReferenceIdeal.Read Idealize.ShloMosaic Idealize.ShloMosaic.ValueIdx

/-- The two printed products are plain M×K by K×N products. -/
theorem dims_hidden : dot_S100000x256_S256x256_S100000x256_1_0_0_1_n_n = DotDims.plain 100000 256 256 := rfl
theorem dims_out : dot_S100000x256_S256x128_S100000x128_1_0_0_1_n_n = DotDims.plain 100000 256 128 := rfl

/-- Entry (P, q) of the reference's result is the network on row P of the assembled features (the generated stage
    `val_main_v14`: the node features beside the mean of the incoming edge features). -/
theorem result_apply (x0 : (⟨S100000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal))
    (x8 : (⟨S128, .f32⟩ : BufTy).Contents (Elt Ideal)) (P : Fin 100000) (q : Fin 128) :
    val_main_v28 (F := Ideal) x0 x1 x2 x3 x4 x5 x6 x7 x8 (ix2 P q)
      = Cert.Perceptron.row x3 x4 x5 x6 x7 x8 (fun k => val_main_v14 (F := Ideal) x0 x1 x2 (ix2 P k)) q := by
  unfold val_main_v28 val_main_v27 val_main_v26 val_main_v25 Cert.Perceptron.row
  rw [dims_out, Cert.Perceptron.host_layer_apply]
  refine congrArg (fun r => Cert.Perceptron.layer x7 x8 r q) (funext fun j => ?_)
  -- the second hidden layer: an entrywise maximum with a splat of the zero word
  unfold val_main_v24 val_main_v23 val_main_v22 val_main_v21 val_main_v20 val_main_call1_v0 val_main_call1_cst
  rw [maximumf_apply, dims_hidden, Cert.Perceptron.host_layer_apply, Cert.RowBias.splat_apply]
  unfold Cert.Perceptron.hidden
  refine congrArg (fun r => max (Cert.Perceptron.layer x5 x6 r j) Cert.Perceptron.zero) (funext fun k => ?_)
  -- the first hidden layer, the same way
  unfold val_main_v19 val_main_v18 val_main_v17 val_main_v16 val_main_v15 val_main_call0_v0 val_main_call0_cst
  rw [maximumf_apply, dims_hidden, Cert.Perceptron.host_layer_apply, Cert.RowBias.splat_apply]
  rfl

end Cert.ReferenceIdeal.RowValue

end
-- ==== Proof.lean ====
/-
  A graph-network node update: each node's features, beside the mean of the features of its incoming edges, go through
  a three-layer perceptron (256 → 256 → 256 → 128, the first two layers followed by the positive part).

  Both programs assemble the [100000, 256] feature array with the same host operations. The reference then applies the
  perceptron to all rows at once, with three general products. The kernel cuts the rows into 50 blocks of 2000 and
  applies it block by block on the vector unit, with the weights narrowed to a shorter float format first. On the
  extended reals narrowing is the identity, a matrix product into a zero accumulator and a general product are the same
  sum over the contracted coordinate, and the perceptron acts row by row — so both results are the perceptron applied to
  every row of the one feature array, entry by entry. No law beyond that is used: the sums are the same sums in the same
  order, so the precondition (finite inputs) is never opened.

  The three frames are the generated ones (the reference's is its generated run with the result dropped); the kernel's
  idealization rewrote no operation, so there is nothing to preserve.
-/
import proofs.«169461_j25134148616720_1_alg».proof.Defs
import proofs.«169461_j25134148616720_1_alg».proof.Proof.Gen.Kernel
import proofs.«169461_j25134148616720_1_alg».proof.Proof.Gen.Kernel.Skeleton
import proofs.«169461_j25134148616720_1_alg».proof.Proof.Gen.Kernel.Launch
import proofs.«169461_j25134148616720_1_alg».proof.Proof.Gen.Kernel.Points
import proofs.«169461_j25134148616720_1_alg».proof.Proof.Gen.Kernel.Frame
import proofs.«169461_j25134148616720_1_alg».proof.Proof.Gen.KernelIdeal
import proofs.«169461_j25134148616720_1_alg».proof.Proof.Gen.KernelIdeal.Skeleton
import proofs.«169461_j25134148616720_1_alg».proof.Proof.Gen.KernelIdeal.Launch
import proofs.«169461_j25134148616720_1_alg».proof.Proof.Gen.KernelIdeal.Points
import proofs.«169461_j25134148616720_1_alg».proof.Proof.Gen.KernelIdeal.Frame
import proofs.«169461_j25134148616720_1_alg».proof.Proof.Gen.ReferenceIdeal
import proofs.«169461_j25134148616720_1_alg».proof.Proof.Gen.Pre_finite_inputs
import proofs.«169461_j25134148616720_1_alg».proof.Proof.Gen.KernelIdeal.Value
import proofs.«169461_j25134148616720_1_alg».proof.Proof.Gen.ReferenceIdeal.Run
import proofs.«169461_j25134148616720_1_alg».proof.Proof.Gen.ReferenceIdeal.Read
import proofs.«169461_j25134148616720_1_alg».proof.Proof.KernelArray
import proofs.«169461_j25134148616720_1_alg».proof.Proof.KernelInputs
import proofs.«169461_j25134148616720_1_alg».proof.Proof.ReferenceRow
import Idealize.ShloMosaic.Adequacy
import Idealize.ShloMosaic.Init

noncomputable section

namespace Cert.Proof

open Idealize.ShloMosaic Idealize.SL.Sem Idealize.ShloMosaic.ValueIdx

/-- The kernel's whole-array function in terms of the argument arrays: the perceptron, with the weights and biases
    themselves, on every row of the features the reference assembles. -/
theorem network_of_arguments (m : (ℓ : Loc Cert.KernelIdeal.nD Cert.KernelIdeal.τ Cert.KernelIdeal.sig) → Buf (Elt Ideal) ℓ)
    (c : Dev Cert.KernelIdeal.nD) :
    Cert.KernelIdeal.ArrayValue.network m c
      = Cert.Perceptron.rows
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (Cert.ReferenceIdeal.Read.val_main_v14 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))) := by
  show Cert.Perceptron.rows (Cert.KernelIdeal.Gen.V m c Cert.KernelIdeal.main_v15) (Cert.KernelIdeal.Gen.V m c Cert.KernelIdeal.main_arg4)
      (Cert.KernelIdeal.Gen.V m c Cert.KernelIdeal.main_v16) (Cert.KernelIdeal.Gen.V m c Cert.KernelIdeal.main_arg6)
      (Cert.KernelIdeal.Gen.V m c Cert.KernelIdeal.main_v17) (Cert.KernelIdeal.Gen.V m c Cert.KernelIdeal.main_arg8)
      (Cert.KernelIdeal.Gen.V m c Cert.KernelIdeal.main_v14) = _
  rw [Cert.KernelIdeal.Inputs.weight1 m c, Cert.KernelIdeal.Inputs.weight2 m c, Cert.KernelIdeal.Inputs.weight3 m c,
    Cert.KernelIdeal.Inputs.features m c, Cert.KernelIdeal.Gen.V_main_arg4 m c, Cert.KernelIdeal.Gen.V_main_arg6 m c,
    Cert.KernelIdeal.Gen.V_main_arg8 m c]
  -- narrowing a float format is the identity on the extended reals
  rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the perceptron applied to every row of the one feature array. -/
theorem algebraic : Cert.algebraic_KernelIdeal_ReferenceIdeal := by
  intro m ρ m' ρ' _ hagree
  refine ⟨fun c => Cert.KernelIdeal.ArrayValue.network m c, ?_, ?_⟩
  · exact (θ_run Cert.KernelIdeal.defs _ _).mono
      (fun r h c => ⟨(h c).1.trans (Cert.KernelIdeal.ArrayValue.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    show _ = Cert.KernelIdeal.ArrayValue.network m c
    rw [Cert.ReferenceIdeal.Read.val_main_v28_eq, a0, a1, a2, a3, a4, a5, a6, a7, a8, network_of_arguments m c]
    funext i
    obtain ⟨P, q, rfl⟩ : ∃ (P : Fin 100000) (q : Fin 128), i = ix2 P q := ⟨i 0, i 1, eq_ix2 i⟩
    rw [Cert.ReferenceIdeal.RowValue.result_apply, Cert.Perceptron.rows_apply]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
